-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S256x16x512 : Shape := ⟨3, ![256, 16, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S256x16x512 : S_.BroadcastsInDim S256x16x512 (![] : Fin 0 → Fin S256x16x512.rank)
  reducesTo_S256x16x512_S_d0_1_2 : S256x16x512.ReducesTo [0, 1, 2] S_

variable [Facts]

def fn {F : FTy → Type} [FloatOps F] (main_arg0 : FVec F S128x512 .f32) (main_arg1 : FVec F S256x16x512 .f32) (main_arg2 : FVec F S256x16x512 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S256x16x512 .f32 := Host.absf main_arg1
  let main_cst_0 : FVec F S_ .f32 := constant S_ .f32 0x7F800000#32
  let main_v5 : FVec F S256x16x512 .f32 := broadcastInDim S256x16x512 ![] bcast_S_S256x16x512 main_cst_0
  let main_v6 : IVec S256x16x512 1 := cmpf .olt main_v4 main_v5
  let main_c_1 : IVec S_ 1 := constantI S_ 1 1#1
  let main_v7 : IVec S_ 1 := (fun x v => Host.reduce IntOp.andi x v reducesTo_S256x16x512_S_d0_1_2 h_S_) main_v6 main_c_1
  let main_v8 : IVec S_ 1 := andi main_v3 main_v7
  let main_v9 : FVec F S256x16x512 .f32 := Host.absf main_arg2
  let main_cst_2 : FVec F S_ .f32 := constant S_ .f32 0x7F800000#32
  let main_v10 : FVec F S256x16x512 .f32 := broadcastInDim S256x16x512 ![] bcast_S_S256x16x512 main_cst_2
  let main_v11 : IVec S256x16x512 1 := cmpf .olt main_v9 main_v10
  let main_c_3 : IVec S_ 1 := constantI S_ 1 1#1
  let main_v12 : IVec S_ 1 := (fun x v => Host.reduce IntOp.andi x v reducesTo_S256x16x512_S_d0_1_2 h_S_) main_v11 main_c_3
  let main_v13 : IVec S_ 1 := andi main_v8 main_v12
  main_v13
-- ==== Kernel.lean ====
abbrev S128x512 : Shape := ⟨2, ![128, 512]⟩
abbrev S256x16x512 : Shape := ⟨3, ![256, 16, 512]⟩
abbrev S128x256 : Shape := ⟨2, ![128, 256]⟩
abbrev S8x512 : Shape := ⟨2, ![8, 512]⟩
abbrev S128x16x512 : Shape := ⟨3, ![128, 16, 512]⟩
abbrev S8x128 : Shape := ⟨2, ![8, 128]⟩
abbrev S128x1x128 : Shape := ⟨3, ![128, 1, 128]⟩
abbrev S128x128 : Shape := ⟨2, ![128, 128]⟩
abbrev S8x1x128 : Shape := ⟨3, ![8, 1, 128]⟩
abbrev S1x128x128 : Shape := ⟨3, ![1, 128, 128]⟩
abbrev S8x128x128 : Shape := ⟨3, ![8, 128, 128]⟩

abbrev nBuf : Space → Nat
  | .hbm => 4
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S256x16x512, .f32⟩
  | .hbm, ⟨2, _⟩ => ⟨S256x16x512, .f32⟩
  | .hbm, ⟨3, _⟩ => ⟨S128x256, .f32⟩
  | .local _ .vmem, ⟨0, _⟩ => ⟨S8x512, .f32⟩
  | .local _ .vmem, ⟨1, _⟩ => ⟨S8x512, .f32⟩
  | .local _ .vmem, ⟨2, _⟩ => ⟨S128x16x512, .f32⟩
  | .local _ .vmem, ⟨3, _⟩ => ⟨S128x16x512, .f32⟩
  | .local _ .vmem, ⟨4, _⟩ => ⟨S128x16x512, .f32⟩
  | .local _ .vmem, ⟨5, _⟩ => ⟨S128x16x512, .f32⟩
  | .local _ .vmem, ⟨6, _⟩ => ⟨S8x128, .f32⟩
  | .local _ .vmem, ⟨7, _⟩ => ⟨S8x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S8x512_S8x128_0_0 : ∀ a, (![0, 0] : Fin 2 → Nat) a + S8x128.size a ≤ S8x512.size a
  h_S8x128 : 0 < S8x128.numel
  inb_S128x16x512_S128x1x128_0_0_0 : ∀ a, (![0, 0, 0] : Fin 3 → Nat) a + S128x1x128.size a ≤ S128x16x512.size a
  h_S128x1x128 : 0 < S128x1x128.numel
  shapeCasts_S128x1x128_S128x128 : S128x1x128.ShapeCasts S128x128
  shapeCasts_S8x128_S8x1x128 : S8x128.ShapeCasts S8x1x128
  shapeCasts_S128x128_S1x128x128 : S128x128.ShapeCasts S1x128x128
  broadcasts_S8x1x128_S8x128x128 : S8x1x128.Broadcasts S8x128x128
  broadcasts_S1x128x128_S8x128x128 : S1x128x128.Broadcasts S8x128x128
  reduces_S8x128x128_S8x128 : S8x128x128.Reduces [2] S8x128
  inb_S8x512_S8x128_0_128 : ∀ a, (![0, 128] : Fin 2 → Nat) a + S8x128.size a ≤ S8x512.size a
  inb_S128x16x512_S128x1x128_0_0_128 : ∀ a, (![0, 0, 128] : Fin 3 → Nat) a + S128x1x128.size a ≤ S128x16x512.size a
  inb_S8x512_S8x128_0_256 : ∀ a, (![0, 256] : Fin 2 → Nat) a + S8x128.size a ≤ S8x512.size a
  inb_S128x16x512_S128x1x128_0_0_256 : ∀ a, (![0, 0, 256] : Fin 3 → Nat) a + S128x1x128.size a ≤ S128x16x512.size a
  inb_S8x512_S8x128_0_384 : ∀ a, (![0, 384] : Fin 2 → Nat) a + S8x128.size a ≤ S8x512.size a
  inb_S128x16x512_S128x1x128_0_0_384 : ∀ a, (![0, 0, 384] : Fin 3 → Nat) a + S128x1x128.size a ≤ S128x16x512.size a
  inb_S128x16x512_S128x1x128_0_1_0 : ∀ a, (![0, 1, 0] : Fin 3 → Nat) a + S128x1x128.size a ≤ S128x16x512.size a
  inb_S128x16x512_S128x1x128_0_1_128 : ∀ a, (![0, 1, 128] : Fin 3 → Nat) a + S128x1x128.size a ≤ S128x16x512.size a
  inb_S128x16x512_S128x1x128_0_1_256 : ∀ a, (![0, 1, 256] : Fin 3 → Nat) a + S128x1x128.size a ≤ S128x16x512.size a
  inb_S128x16x512_S128x1x128_0_1_384 : ∀ a, (![0, 1, 384] : Fin 3 → Nat) a + S128x1x128.size a ≤ S128x16x512.size a
  inb_S128x16x512_S128x1x128_0_2_0 : ∀ a, (![0, 2, 0] : Fin 3 → Nat) a + S128x1x128.size a ≤ S128x16x512.size a
  inb_S128x16x512_S128x1x128_0_2_128 : ∀ a, (![0, 2, 128] : Fin 3 → Nat) a + S128x1x128.size a ≤ S128x16x512.size a
  inb_S128x16x512_S128x1x128_0_2_256 : ∀ a, (![0, 2, 256] : Fin 3 → Nat) a + S128x1x128.size a ≤ S128x16x512.size a
  inb_S128x16x512_S128x1x128_0_2_384 : ∀ a, (![0, 2, 384] : Fin 3 → Nat) a + S128x1x128.size a ≤ S128x16x512.size a
  inb_S128x16x512_S128x1x128_0_3_0 : ∀ a, (![0, 3, 0] : Fin 3 → Nat) a + S128x1x128.size a ≤ S128x16x512.size a
  inb_S128x16x512_S128x1x128_0_3_128 : ∀ a, (![0, 3, 128] : Fin 3 → Nat) a + S128x1x128.size a ≤ S128x16x512.size a
  inb_S128x16x512_S128x1x128_0_3_256 : ∀ a, (![0, 3, 256] : Fin 3 → Nat) a + S128x1x128.size a ≤ S128x16x512.size a
  inb_S128x16x512_S128x1x128_0_3_384 : ∀ a, (![0, 3, 384] : Fin 3 → Nat) a + S128x1x128.size a ≤ S128x16x512.size a
  inb_S128x16x512_S128x1x128_0_4_0 : ∀ a, (![0, 4, 0] : Fin 3 → Nat) a + S128x1x128.size a ≤ S128x16x512.size a
  inb_S128x16x512_S128x1x128_0_4_128 : ∀ a, (![0, 4, 128] : Fin 3 → Nat) a + S128x1x128.size a ≤ S128x16x512.size a
  inb_S128x16x512_S128x1x128_0_4_256 : ∀ a, (![0, 4, 256] : Fin 3 → Nat) a + S128x1x128.size a ≤ S128x16x512.size a
  inb_S128x16x512_S128x1x128_0_4_384 : ∀ a, (![0, 4, 384] : Fin 3 → Nat) a + S128x1x128.size a ≤ S128x16x512.size a
  inb_S128x16x512_S128x1x128_0_5_0 : ∀ a, (![0, 5, 0] : Fin 3 → Nat) a + S128x1x128.size a ≤ S128x16x512.size a
  inb_S128x16x512_S128x1x128_0_5_128 : ∀ a, (![0, 5, 128] : Fin 3 → Nat) a + S128x1x128.size a ≤ S128x16x512.size a
  inb_S128x16x512_S128x1x128_0_5_256 : ∀ a, (![0, 5, 256] : Fin 3 → Nat) a + S128x1x128.size a ≤ S128x16x512.size a
  inb_S128x16x512_S128x1x128_0_5_384 : ∀ a, (![0, 5, 384] : Fin 3 → Nat) a + S128x1x128.size a ≤ S128x16x512.size a
  inb_S128x16x512_S128x1x128_0_6_0 : ∀ a, (![0, 6, 0] : Fin 3 → Nat) a + S128x1x128.size a ≤ S128x16x512.size a
  inb_S128x16x512_S128x1x128_0_6_128 : ∀ a, (![0, 6, 128] : Fin 3 → Nat) a + S128x1x128.size a ≤ S128x16x512.size a
  inb_S128x16x512_S128x1x128_0_6_256 : ∀ a, (![0, 6, 256] : Fin 3 → Nat) a + S128x1x128.size a ≤ S128x16x512.size a
  inb_S128x16x512_S128x1x128_0_6_384 : ∀ a, (![0, 6, 384] : Fin 3 → Nat) a + S128x1x128.size a ≤ S128x16x512.size a
  inb_S128x16x512_S128x1x128_0_7_0 : ∀ a, (![0, 7, 0] : Fin 3 → Nat) a + S128x1x128.size a ≤ S128x16x512.size a
  inb_S128x16x512_S128x1x128_0_7_128 : ∀ a, (![0, 7, 128] : Fin 3 → Nat) a + S128x1x128.size a ≤ S128x16x512.size a
  inb_S128x16x512_S128x1x128_0_7_256 : ∀ a, (![0, 7, 256] : Fin 3 → Nat) a + S128x1x128.size a ≤ S128x16x512.size a
  inb_S128x16x512_S128x1x128_0_7_384 : ∀ a, (![0, 7, 384] : Fin 3 → Nat) a + S128x1x128.size a ≤ S128x16x512.size a
  inb_S128x16x512_S128x1x128_0_8_0 : ∀ a, (![0, 8, 0] : Fin 3 → Nat) a + S128x1x128.size a ≤ S128x16x512.size a
  inb_S128x16x512_S128x1x128_0_8_128 : ∀ a, (![0, 8, 128] : Fin 3 → Nat) a + S128x1x128.size a ≤ S128x16x512.size a
  inb_S128x16x512_S128x1x128_0_8_256 : ∀ a, (![0, 8, 256] : Fin 3 → Nat) a + S128x1x128.size a ≤ S128x16x512.size a
  inb_S128x16x512_S128x1x128_0_8_384 : ∀ a, (![0, 8, 384] : Fin 3 → Nat) a + S128x1x128.size a ≤ S128x16x512.size a
  inb_S128x16x512_S128x1x128_0_9_0 : ∀ a, (![0, 9, 0] : Fin 3 → Nat) a + S128x1x128.size a ≤ S128x16x512.size a
  inb_S128x16x512_S128x1x128_0_9_128 : ∀ a, (![0, 9, 128] : Fin 3 → Nat) a + S128x1x128.size a ≤ S128x16x512.size a
  inb_S128x16x512_S128x1x128_0_9_256 : ∀ a, (![0, 9, 256] : Fin 3 → Nat) a + S128x1x128.size a ≤ S128x16x512.size a
  inb_S128x16x512_S128x1x128_0_9_384 : ∀ a, (![0, 9, 384] : Fin 3 → Nat) a + S128x1x128.size a ≤ S128x16x512.size a
  inb_S128x16x512_S128x1x128_0_10_0 : ∀ a, (![0, 10, 0] : Fin 3 → Nat) a + S128x1x128.size a ≤ S128x16x512.size a
  inb_S128x16x512_S128x1x128_0_10_128 : ∀ a, (![0, 10, 128] : Fin 3 → Nat) a + S128x1x128.size a ≤ S128x16x512.size a
  inb_S128x16x512_S128x1x128_0_10_256 : ∀ a, (![0, 10, 256] : Fin 3 → Nat) a + S128x1x128.size a ≤ S128x16x512.size a
  inb_S128x16x512_S128x1x128_0_10_384 : ∀ a, (![0, 10, 384] : Fin 3 → Nat) a + S128x1x128.size a ≤ S128x16x512.size a
  inb_S128x16x512_S128x1x128_0_11_0 : ∀ a, (![0, 11, 0] : Fin 3 → Nat) a + S128x1x128.size a ≤ S128x16x512.size a
  inb_S128x16x512_S128x1x128_0_11_128 : ∀ a, (![0, 11, 128] : Fin 3 → Nat) a + S128x1x128.size a ≤ S128x16x512.size a
  inb_S128x16x512_S128x1x128_0_11_256 : ∀ a, (![0, 11, 256] : Fin 3 → Nat) a + S128x1x128.size a ≤ S128x16x512.size a
  inb_S128x16x512_S128x1x128_0_11_384 : ∀ a, (![0, 11, 384] : Fin 3 → Nat) a + S128x1x128.size a ≤ S128x16x512.size a
  inb_S128x16x512_S128x1x128_0_12_0 : ∀ a, (![0, 12, 0] : Fin 3 → Nat) a + S128x1x128.size a ≤ S128x16x512.size a
  inb_S128x16x512_S128x1x128_0_12_128 : ∀ a, (![0, 12, 128] : Fin 3 → Nat) a + S128x1x128.size a ≤ S128x16x512.size a
  inb_S128x16x512_S128x1x128_0_12_256 : ∀ a, (![0, 12, 256] : Fin 3 → Nat) a + S128x1x128.size a ≤ S128x16x512.size a
  inb_S128x16x512_S128x1x128_0_12_384 : ∀ a, (![0, 12, 384] : Fin 3 → Nat) a + S128x1x128.size a ≤ S128x16x512.size a
  inb_S128x16x512_S128x1x128_0_13_0 : ∀ a, (![0, 13, 0] : Fin 3 → Nat) a + S128x1x128.size a ≤ S128x16x512.size a
  inb_S128x16x512_S128x1x128_0_13_128 : ∀ a, (![0, 13, 128] : Fin 3 → Nat) a + S128x1x128.size a ≤ S128x16x512.size a
  inb_S128x16x512_S128x1x128_0_13_256 : ∀ a, (![0, 13, 256] : Fin 3 → Nat) a + S128x1x128.size a ≤ S128x16x512.size a
  inb_S128x16x512_S128x1x128_0_13_384 : ∀ a, (![0, 13, 384] : Fin 3 → Nat) a + S128x1x128.size a ≤ S128x16x512.size a
  inb_S128x16x512_S128x1x128_0_14_0 : ∀ a, (![0, 14, 0] : Fin 3 → Nat) a + S128x1x128.size a ≤ S128x16x512.size a
  inb_S128x16x512_S128x1x128_0_14_128 : ∀ a, (![0, 14, 128] : Fin 3 → Nat) a + S128x1x128.size a ≤ S128x16x512.size a
  inb_S128x16x512_S128x1x128_0_14_256 : ∀ a, (![0, 14, 256] : Fin 3 → Nat) a + S128x1x128.size a ≤ S128x16x512.size a
  inb_S128x16x512_S128x1x128_0_14_384 : ∀ a, (![0, 14, 384] : Fin 3 → Nat) a + S128x1x128.size a ≤ S128x16x512.size a
  inb_S128x16x512_S128x1x128_0_15_0 : ∀ a, (![0, 15, 0] : Fin 3 → Nat) a + S128x1x128.size a ≤ S128x16x512.size a
  inb_S128x16x512_S128x1x128_0_15_128 : ∀ a, (![0, 15, 128] : Fin 3 → Nat) a + S128x1x128.size a ≤ S128x16x512.size a
  inb_S128x16x512_S128x1x128_0_15_256 : ∀ a, (![0, 15, 256] : Fin 3 → Nat) a + S128x1x128.size a ≤ S128x16x512.size a
  inb_S128x16x512_S128x1x128_0_15_384 : ∀ a, (![0, 15, 384] : Fin 3 → Nat) a + S128x1x128.size a ≤ S128x16x512.size a
  inb_S8x128_S8x128_0_0 : ∀ a, (![0, 0] : Fin 2 → Nat) a + S8x128.size a ≤ S8x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S128x512.size a
  hwx0_0 : ∀ i : grid0.Coords, EltTy.bits .f32 = 32 ∨ (Rect.block (s := S128x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16x512.size a ≤ S256x16x512.size a
  hwx0_1 : ∀ i : grid0.Coords, EltTy.bits .f32 = 32 ∨ (Rect.block (s := S256x16x512) S128x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16x512.size a ≤ S256x16x512.size a
  hwx0_2 : ∀ i : grid0.Coords, EltTy.bits .f32 = 32 ∨ (Rect.block (s := S256x16x512) S128x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S128x256.size a
  hwx0_3 : ∀ i : grid0.Coords, EltTy.bits .f32 = 32 ∨ (Rect.block (s := S128x256) S8x128.size (cc0_transform_3 i) (hinb0_3 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x512 : Shape := ⟨2, ![128, 512]⟩
abbrev S256x16x512 : Shape := ⟨3, ![256, 16, 512]⟩
abbrev S128x1x1x512 : Shape := ⟨4, ![128, 1, 1, 512]⟩
abbrev S1x256x16x512 : Shape := ⟨4, ![1, 256, 16, 512]⟩
abbrev S128x256x16x512 : Shape := ⟨4, ![128, 256, 16, 512]⟩
abbrev S_ : Shape := ⟨0, ![]⟩
abbrev S128x256x16 : Shape := ⟨3, ![128, 256, 16]⟩
abbrev S128x256 : Shape := ⟨2, ![128, 256]⟩

abbrev nBuf : Space → Nat
  | .hbm => 30
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S256x16x512, .f32⟩
  | .hbm, ⟨2, _⟩ => ⟨S256x16x512, .f32⟩
  | .hbm, ⟨3, _⟩ => ⟨S128x1x1x512, .f32⟩
  | .hbm, ⟨4, _⟩ => ⟨S1x256x16x512, .f32⟩
  | .hbm, ⟨5, _⟩ => ⟨S128x256x16x512, .f32⟩
  | .hbm, ⟨6, _⟩ => ⟨S128x256x16x512, .f32⟩
  | .hbm, ⟨7, _⟩ => ⟨S128x256x16x512, .f32⟩
  | .hbm, ⟨8, _⟩ => ⟨S1x256x16x512, .f32⟩
  | .hbm, ⟨9, _⟩ => ⟨S128x256x16x512, .f32⟩
  | .hbm, ⟨10, _⟩ => ⟨S128x256x16x512, .f32⟩
  | .hbm, ⟨11, _⟩ => ⟨S_, .f32⟩
  | .hbm, ⟨12, _⟩ => ⟨S128x256x16x512, .f32⟩
  | .hbm, ⟨13, _⟩ => ⟨S128x256x16x512, .f32⟩
  | .hbm, ⟨14, _⟩ => ⟨S_, .f32⟩
  | .hbm, ⟨15, _⟩ => ⟨S128x256x16x512, .f32⟩
  | .hbm, ⟨16, _⟩ => ⟨S128x256x16x512, .f32⟩
  | .hbm, ⟨17, _⟩ => ⟨S_, .f32⟩
  | .hbm, ⟨18, _⟩ => ⟨S128x256x16, .f32⟩
  | .hbm, ⟨19, _⟩ => ⟨S_, .f32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S128x512_S128x1x1x512_0_3 : S128x512.BroadcastsInDim S128x1x1x512 (![0, 3] : Fin 2 → Fin S128x1x1x512.rank)
  bcast_S256x16x512_S1x256x16x512_1_2_3 : S256x16x512.BroadcastsInDim S1x256x16x512 (![1, 2, 3] : Fin 3 → Fin S1x256x16x512.rank)
  bcast_S128x1x1x512_S128x256x16x512_0_1_2_3 : S128x1x1x512.BroadcastsInDim S128x256x16x512 (![0, 1, 2, 3] : Fin 4 → Fin S128x256x16x512.rank)
  bcast_S1x256x16x512_S128x256x16x512_0_1_2_3 : S1x256x16x512.BroadcastsInDim S128x256x16x512 (![0, 1, 2, 3] : Fin 4 → Fin S128x256x16x512.rank)
  bcast_S_S128x256x16x512 : S_.BroadcastsInDim S128x256x16x512 (![] : Fin 0 → Fin S128x256x16x512.rank)
  reducesTo_S128x256x16x512_S128x256x16_d3 : S128x256x16x512.ReducesTo [3] S128x256x16
  h_S_ : 0 < S_.numel
  reducesTo_S128x256x16_S128x256_d2 : S128x256x16.ReducesTo [2] S128x256
  bcast_S_S128x256 : S_.BroadcastsInDim S128x256 (![] : Fin 0 → Fin S128x256.rank)

variable [Facts₀]

class Facts : Prop extends Facts₀ where

variable [Facts]
-- ==== Proof.Steps.lean ====
/-
  The kernel body as a fold of ONE step.

  At a grid point the body starts from a zero [8, 128] accumulator and, for each dendrite `m < 16` and each chunk `ic < 4` of 128 input
  lanes, adds to it the lane sum of `max (x · w − q) 0`, where `x` is the chunk of the [8, 512] input block and `w`, `q` are row `m`, chunk
  `ic` of the two [128, 16, 512] blocks, each broadcast to [8, 128, 128]. After the 64 steps it stores `max (c · (c · acc − d)) 0` with
  `c = 0.5`, `d = 0.1`. Here the step is written once (`synStep`), the accumulator after `k` steps by recursion on `k` (`accAfter`, step `k`
  reading dendrite `k / 4`, chunk `k % 4`), and the stored block is shown to be the 64-fold of the step (`out0_3_eq`).
-/
import proofs.«421174_j6176162971841_3_alg».proof.Proof.Gen.KernelIdeal.Frame

noncomputable section

namespace Cert.KernelIdeal.Dnm

open Cert.KernelIdeal Cert.KernelIdeal.Gen Idealize.ShloMosaic Idealize.ShloMosaic.TcCoe Idealize.SL.Sem

variable {F : FTy → Type} [FloatOps F]

/-- The accumulator the body starts from. -/
def zeroAcc : FVec F S8x128 .f32 := broadcast S8x128 (Scalar.ofBits .f32 0x00000000#32)

/-- One step: the accumulator plus, at (b, o), the sum over the 128 lanes of `max (x[b, l] · w[o, 0, l] − q[o, 0, l]) 0`. -/
def synStep (acc : FVec F S8x128 .f32) (xc : Vec F S8x128 .f32) (wc qc : Vec F S128x1x128 .f32) : FVec F S8x128 .f32 :=
  addf acc (multiReduction .add [2] S8x128
    (maximumf
      (subf
        (mulf
          (broadcastTo S8x128x128 (shapeCast S8x1x128 xc shapeCasts_S8x128_S8x1x128) broadcasts_S8x1x128_S8x128x128)
          (broadcastTo S8x128x128 (shapeCast S1x128x128 (shapeCast S128x128 wc shapeCasts_S128x1x128_S128x128) shapeCasts_S128x128_S1x128x128)
            broadcasts_S1x128x128_S8x128x128))
        (broadcastTo S8x128x128 (shapeCast S1x128x128 (shapeCast S128x128 qc shapeCasts_S128x1x128_S128x128) shapeCasts_S128x128_S1x128x128)
          broadcasts_S1x128x128_S8x128x128))
      (broadcast S8x128x128 (Scalar.ofBits .f32 0x00000000#32)))
    0x00000000#32 reduces_S8x128x128_S8x128 (.inl rfl) rfl)

/-- What is stored from the final accumulator: `max (c · (c · acc − d)) 0`, `c` and `d` the patterns of 0.5 and 0.1. -/
def finish (acc : FVec F S8x128 .f32) : FVec F S8x128 .f32 :=
  maximumf
    (mulf (broadcast S8x128 (Scalar.ofBits .f32 0x3F000000#32))
      (subf (mulf (broadcast S8x128 (Scalar.ofBits .f32 0x3F000000#32)) acc) (broadcast S8x128 (Scalar.ofBits .f32 0x3DCCCCCD#32))))
    (broadcast S8x128 (Scalar.ofBits .f32 0x00000000#32))

/-- Chunk `k % 4` of the input block lies inside it. -/
theorem xRect_inb (k : ℕ) : ∀ a, (![0, 128 * (k % 4)] : Fin 2 → ℕ) a + S8x128.size a ≤ S8x512.size a := by
  intro a
  have hk : k % 4 < 4 := Nat.mod_lt _ (by decide)
  match a with
  | ⟨0, _⟩ => show 0 + 8 ≤ 8; omega
  | ⟨1, _⟩ => show 128 * (k % 4) + 128 ≤ 512; omega

/-- Row `(k / 4) % 16`, chunk `k % 4` of a weight block lies inside it. -/
theorem wRect_inb (k : ℕ) : ∀ a, (![0, (k / 4) % 16, 128 * (k % 4)] : Fin 3 → ℕ) a + S128x1x128.size a ≤ S128x16x512.size a := by
  intro a
  have hk : k % 4 < 4 := Nat.mod_lt _ (by decide)
  have hm : (k / 4) % 16 < 16 := Nat.mod_lt _ (by decide)
  match a with
  | ⟨0, _⟩ => show 0 + 128 ≤ 128; omega
  | ⟨1, _⟩ => show (k / 4) % 16 + 1 ≤ 16; omega
  | ⟨2, _⟩ => show 128 * (k % 4) + 128 ≤ 512; omega

/-- The rectangle of the input block step `k` loads. -/
abbrev xRect (k : ℕ) : Rect S8x512 := Rect.unit (s := S8x512) ![0, 128 * (k % 4)] S8x128.size (xRect_inb k)

/-- The rectangle of either weight block step `k` loads. -/
abbrev wRect (k : ℕ) : Rect S128x16x512 := Rect.unit (s := S128x16x512) ![0, (k / 4) % 16, 128 * (k % 4)] S128x1x128.size (wRect_inb k)

/-- The accumulator after `k` steps over the three blocks. -/
def accAfter (x0 : Vec F S8x512 .f32) (x1 x2 : Vec F S128x16x512 .f32) : ℕ → FVec F S8x128 .f32
  | 0 => zeroAcc
  | k + 1 => synStep (accAfter x0 x1 x2 k) (View.ld x0 (xRect k)) (View.ld x1 (wRect k)) (View.ld x2 (wRect k))

/-- The first window of the body is two steps from the zero accumulator. -/
theorem pay2_eq (a : Vec F S8x128 .f32) (b c : Vec F S128x1x128 .f32) (d : Vec F S8x128 .f32) (e f : Vec F S128x1x128 .f32) :
    k0_pay2 a b c d e f = synStep (synStep zeroAcc a b c) d e f := rfl

/-- THE STORED BLOCK is the finish of the accumulator after all 64 steps: the body's payloads, window by window, are the step applied
    to the loads of the rectangles of dendrite `k / 4`, chunk `k % 4`, in the order `k = 0, …, 63`. -/
theorem out0_3_eq (x0 : Vec F S8x512 .f32) (x1 x2 : Vec F S128x16x512 .f32) :
    out0_3 x0 x1 x2 = View.canon [⟨r0_68, finish (accAfter x0 x1 x2 64)⟩] := rfl

end Cert.KernelIdeal.Dnm

end
-- ==== Proof.StepValue.lean ====
/-
  The step, and the accumulator after `k` steps, read at an entry (b, o) over the extended reals.

  A step's [8, 128, 128] operand is `max (x[b, l] · w[o, 0, l] − q[o, 0, l]) 0` at (b, o, l): the input chunk is cast to [8, 1, 128] and
  broadcast along the middle axis, each weight chunk is cast [128, 1, 128] → [128, 128] → [1, 128, 128] and broadcast along the first. The
  lane reduction is the sum over `l`. So the accumulator after `k` steps is, at (b, o), the sum over `j < k` of step `j`'s lane sum
  (`accAfter_apply`), the zero accumulator contributing `0`.
-/
import proofs.«421174_j6176162971841_3_alg».proof.Proof.Steps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dnm

open Cert.KernelIdeal Cert.KernelIdeal.Gen Idealize.ShloMosaic Idealize.ShloMosaic.TcCoe Idealize.SL.Sem Idealize.ShloMosaic.ValueIdx

/-- The input chunk, cast to [8, 1, 128] and broadcast to [8, 128, 128], holds `x[b, l]` at (b, o, l). -/
theorem xLane_apply {α : Type} (xc : S8x128.Idx → α) (p : Fin 8) (o l : Fin 128) :
    broadcastTo S8x128x128 (shapeCast S8x1x128 xc shapeCasts_S8x128_S8x1x128) broadcasts_S8x1x128_S8x128x128 (ix3 p o l)
      = xc (ix2 p l) := by
  refine (broadcastTo_apply _ broadcasts_S8x1x128_S8x128x128 (ix3 p o l) (ix3 p (0 : Fin 1) l) (fun a => ?_)).trans ?_
  · match a with
    | ⟨0, _⟩ => show p.val = if (8 : ℕ) = 1 then 0 else p.val; rw [if_neg (by decide)]
    | ⟨1, _⟩ => show 0 = if (1 : ℕ) = 1 then 0 else o.val; rw [if_pos rfl]
    | ⟨2, _⟩ => show l.val = if (128 : ℕ) = 1 then 0 else l.val; rw [if_neg (by decide)]
  · refine shapeCast_apply xc shapeCasts_S8x128_S8x1x128 (ix3 p (0 : Fin 1) l) (ix2 p l) ?_
    rw [Shape.rowMajor_val_two, Shape.rowMajor_val_three]
    show p.val * 128 + l.val = (p.val * 1 + 0) * 128 + l.val
    omega

/-- A weight chunk, cast [128, 1, 128] → [128, 128] → [1, 128, 128] and broadcast to [8, 128, 128], holds `w[o, 0, l]` at (b, o, l). -/
theorem wLane_apply {α : Type} (wc : S128x1x128.Idx → α) (p : Fin 8) (o l : Fin 128) :
    broadcastTo S8x128x128
        (shapeCast S1x128x128 (shapeCast S128x128 wc shapeCasts_S128x1x128_S128x128) shapeCasts_S128x128_S1x128x128)
        broadcasts_S1x128x128_S8x128x128 (ix3 p o l)
      = wc (ix3 o (0 : Fin 1) l) := by
  refine (broadcastTo_apply _ broadcasts_S1x128x128_S8x128x128 (ix3 p o l) (ix3 (0 : Fin 1) o l) (fun a => ?_)).trans ?_
  · match a with
    | ⟨0, _⟩ => show 0 = if (1 : ℕ) = 1 then 0 else p.val; rw [if_pos rfl]
    | ⟨1, _⟩ => show o.val = if (128 : ℕ) = 1 then 0 else o.val; rw [if_neg (by decide)]
    | ⟨2, _⟩ => show l.val = if (128 : ℕ) = 1 then 0 else l.val; rw [if_neg (by decide)]
  · refine (shapeCast_ab_1ab_apply _ shapeCasts_S128x128_S1x128x128 (0 : Fin 1) o l).trans ?_
    refine shapeCast_apply wc shapeCasts_S128x1x128_S128x128 (ix2 o l) (ix3 o (0 : Fin 1) l) ?_
    rw [Shape.rowMajor_val_three, Shape.rowMajor_val_two]
    show (o.val * 1 + 0) * 128 + l.val = o.val * 128 + l.val
    omega

/-- The lane reduction of an [8, 128, 128] array at (b, o) is the sum over `l` of its entries (b, o, l). -/
theorem laneSum_apply (v : FVec Ideal S8x128x128 .f32) (p : Fin 8) (o : Fin 128) :
    multiReduction .add [2] S8x128 v 0x00000000#32 reduces_S8x128x128_S8x128 (.inl rfl) rfl (ix2 p o)
      = ∑ l : Fin 128, v (ix3 p o l) := by
  refine (Ideal.multiReduction_add_single v 0x00000000#32 reduces_S8x128x128_S8x128 (.inl rfl) rfl (ix2 p o)).trans ?_
  refine Finset.sum_congr rfl fun l _ => congrArg v ?_
  funext a; apply Fin.ext
  match a with
  | ⟨0, _⟩ => rfl
  | ⟨1, _⟩ => rfl
  | ⟨2, _⟩ => rfl

/-- ONE STEP at (b, o): the accumulator there plus the sum over the 128 lanes of `max (x[b, l] · w[o, 0, l] − q[o, 0, l]) 0`. -/
theorem synStep_apply (acc xc : FVec Ideal S8x128 .f32) (wc qc : FVec Ideal S128x1x128 .f32) (p : Fin 8) (o : Fin 128) :
    synStep acc xc wc qc (ix2 p o)
      = acc (ix2 p o) + ∑ l : Fin 128, max (xc (ix2 p l) * wc (ix3 o (0 : Fin 1) l) - qc (ix3 o (0 : Fin 1) l)) 0 := by
  unfold synStep
  refine (congrArg (acc (ix2 p o) + ·) (laneSum_apply _ p o)).trans ?_
  refine congrArg (acc (ix2 p o) + ·) (Finset.sum_congr rfl fun l _ => ?_)
  rw [maximumf_apply, subf_apply, mulf_apply, xLane_apply, wLane_apply, wLane_apply, broadcast_apply]
  exact congrArg (max _) Ideal.ofBits_zero_f32

/-- The lane sum that step `k` adds at (b, o): over the 128 lanes of chunk `k % 4`, `max (x · w − q) 0` with `w`, `q` from row `k / 4`. -/
def stepTerm (x0 : Vec Ideal S8x512 .f32) (x1 x2 : Vec Ideal S128x16x512 .f32) (p : Fin 8) (o : Fin 128) (k : ℕ) : EReal :=
  ∑ l : Fin 128, max ((View.ld x0 (xRect k) (ix2 p l) : EReal) * (View.ld x1 (wRect k) (ix3 o (0 : Fin 1) l) : EReal)
    - (View.ld x2 (wRect k) (ix3 o (0 : Fin 1) l) : EReal)) 0

/-- THE ACCUMULATOR after `k` steps, at (b, o), is the sum of the first `k` steps' lane sums. -/
theorem accAfter_apply (x0 : Vec Ideal S8x512 .f32) (x1 x2 : Vec Ideal S128x16x512 .f32) (p : Fin 8) (o : Fin 128) :
    ∀ k : ℕ, (accAfter x0 x1 x2 k (ix2 p o) : EReal) = ∑ j ∈ Finset.range k, stepTerm x0 x1 x2 p o j
  | 0 => by
    rw [Finset.sum_range_zero]
    exact Ideal.ofBits_zero_f32
  | k + 1 => by
    rw [Finset.sum_range_succ, ← accAfter_apply x0 x1 x2 p o k]
    exact synStep_apply _ _ _ _ p o

end Cert.KernelIdeal.Dnm

end
-- ==== Proof.SumLaws.lean ====
/-
  Extended-real laws used to join the kernel's hoisted form with the reference's.

  The reference sums `max (c * z) 0` over two axes; the kernel sums `max z 0` lane by lane, chunk by chunk, and multiplies the total by `c`
  once. On the extended reals a nonnegative factor commutes with `max · 0`, and it distributes over a sum of NONNEGATIVE terms, infinite
  ones included — so no finiteness of the inputs is needed. A sum over `range (a * b)` splits by quotient and remainder, which is how a
  flat count of the kernel's 64 steps, and of the 512 entries of a row in 4 chunks of 128 lanes, is matched with the reference's axes.
-/
import Mathlib.Data.EReal.Inv
import Mathlib.Algebra.BigOperators.Intervals
import Idealize.ShloMosaic.PureOps.Ideal

noncomputable section

namespace Cert.DnmLaws

open Idealize.ShloMosaic

/-- A nonnegative factor commutes with the positive part: `c · max z 0 = max (c · z) 0` for every extended real `z`. -/
theorem mul_max_zero {c : EReal} (hc : 0 ≤ c) (z : EReal) : c * max z 0 = max (c * z) 0 := by
  rcases le_total 0 z with hz | hz
  · rw [max_eq_left hz, max_eq_left (mul_nonneg hc hz)]
  · have h : c * z ≤ 0 := by
      calc c * z ≤ c * 0 := mul_le_mul_of_nonneg_left hz hc
        _ = 0 := mul_zero c
    rw [max_eq_right hz, mul_zero, max_eq_right h]

/-- Any factor distributes over a finite sum of nonnegative extended reals. -/
theorem mul_sum_of_nonneg {ι : Type*} (s : Finset ι) (c : EReal) (f : ι → EReal) (hf : ∀ i ∈ s, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi)]

/-- A sum over `range (a * b)` is the sum over quotients `q < a` of the sums over remainders `r < b`. -/
theorem sum_range_mul {M : Type*} [AddCommMonoid M] (f : ℕ → M) (a b : ℕ) :
    ∑ j ∈ Finset.range (a * b), f j = ∑ q ∈ Finset.range a, ∑ r ∈ Finset.range b, f (q * b + r) := by
  induction a with
  | zero => simp
  | succ a ih => rw [Nat.succ_mul, Finset.sum_range_add, ih, Finset.sum_range_succ]

/-- The scale both programs spell, `0.5`, is nonnegative. -/
theorem half_nonneg : (0 : EReal) ≤ Ideal.ofBits .f32 0x3F000000#32 := by
  have h : Ideal.ofBits .f32 0x3F000000#32 = ((1 / 2 : ℝ) : EReal) := by
    simp [Ideal.ofBits, Ideal.ieee, -EReal.coe_mul]; norm_num
  rw [h]; exact_mod_cast (by norm_num : (0 : ℝ) ≤ 1 / 2)

end Cert.DnmLaws

end
-- ==== Proof.Spec.lean ====
/-
  What both programs compute, as one function of the three argument arrays, and the law that joins their two forms.

  With `syn m k = x[b, k] · W[o, m, k] − q[o, m, k]` the synapse input of dendrite `m` at input `k`, `c` the pattern of 0.5 and `d` that of
  0.1, entry (b, o) of the result is

    reference:  max (c · ((∑ m < 16, ∑ k < 512, max (c · syn m k) 0) − d)) 0
    kernel:     max (c · (c · (∑ j < 64, ∑ l < 128, max (syn (j / 4) (128 · (j % 4) + l)) 0) − d)) 0

  The kernel counts its 64 steps flat: step `j` is dendrite `j / 4`, lanes `128 · (j % 4) + l`. Splitting `j` by quotient and remainder,
  then a row of 512 into 4 chunks of 128, turns the kernel's double sum into the reference's; pulling `c ≥ 0` through `max · 0` and through
  the two sums of nonnegative terms (no finiteness is used: the laws hold at ±∞) turns `c · ∑ ∑ max (syn) 0` into `∑ ∑ max (c · syn) 0`.
-/
import proofs.«421174_j6176162971841_3_alg».proof.Proof.SumLaws
import Idealize.ShloMosaic.Lib.ValueIdx

noncomputable section

namespace Cert.DnmSpec

open Idealize.ShloMosaic Idealize.ShloMosaic.ValueIdx Cert.DnmLaws

/-- The hoist: a nonnegative `c` times the kernel's flat double sum is the reference's double sum with `c` inside each positive part. -/
theorem hoist_sum {c : EReal} (hc : 0 ≤ c) (z : ℕ → ℕ → EReal) :
    c * ∑ j ∈ Finset.range 64, ∑ l ∈ Finset.range 128, max (z ((j / 4) % 16) (128 * (j % 4) + l)) 0
      = ∑ mm ∈ Finset.range 16, ∑ k ∈ Finset.range 512, max (c * z mm k) 0 := by
  have inner : ∀ j : ℕ, c * ∑ l ∈ Finset.range 128, max (z ((j / 4) % 16) (128 * (j % 4) + l)) 0
      = ∑ l ∈ Finset.range 128, max (c * z ((j / 4) % 16) (128 * (j % 4) + l)) 0 := fun j => by
    rw [mul_sum_of_nonneg _ _ _ (fun l _ => le_max_right _ _)]
    exact Finset.sum_congr rfl fun l _ => mul_max_zero hc _
  rw [mul_sum_of_nonneg _ _ _ (fun j _ => Finset.sum_nonneg fun l _ => le_max_right _ _)]
  rw [Finset.sum_congr rfl fun j _ => inner j]
  rw [show (64 : ℕ) = 16 * 4 from rfl, sum_range_mul]
  refine Finset.sum_congr rfl fun q hq => ?_
  have hq' : q < 16 := Finset.mem_range.mp hq
  rw [show (512 : ℕ) = 4 * 128 from rfl, sum_range_mul]
  refine Finset.sum_congr rfl fun r hr => ?_
  have hr' : r < 4 := Finset.mem_range.mp hr
  refine Finset.sum_congr rfl fun l _ => ?_
  have e1 : ((q * 4 + r) / 4) % 16 = q := by omega
  have e2 : (q * 4 + r) % 4 = r := by omega
  rw [e1, e2, Nat.mul_comm 128 r]

/-- A [128, 512] array and a [256, 16, 512] array of extended reals. -/
abbrev Arr2 : Type := (⟨2, ![128, 512]⟩ : Shape).Idx → EReal
abbrev Arr3 : Type := (⟨3, ![256, 16, 512]⟩ : Shape).Idx → EReal

/-- The synapse input `x[b, k] · W[o, m, k] − q[o, m, k]`, for `m < 16` and `k < 512` (`0` outside, never read). -/
def syn (X : Arr2) (W Q : Arr3) (b : Fin 128) (oo : Fin 256) (mm k : ℕ) : EReal :=
  if h : mm < 16 ∧ k < 512 then
    X (ix2 b ⟨k, h.2⟩) * W (ix3 oo ⟨mm, h.1⟩ ⟨k, h.2⟩) - Q (ix3 oo ⟨mm, h.1⟩ ⟨k, h.2⟩)
  else 0

theorem syn_of_lt (X : Arr2) (W Q : Arr3) (b : Fin 128) (oo : Fin 256) {mm k : ℕ} (hm : mm < 16) (hk : k < 512) :
    syn X W Q b oo mm k = X (ix2 b ⟨k, hk⟩) * W (ix3 oo ⟨mm, hm⟩ ⟨k, hk⟩) - Q (ix3 oo ⟨mm, hm⟩ ⟨k, hk⟩) :=
  dif_pos ⟨hm, hk⟩

/-- The scale `0.5` and the soma threshold `0.1`, as both programs spell them. -/
def half : EReal := Ideal.ofBits .f32 0x3F000000#32
def tenth : EReal := Ideal.ofBits .f32 0x3DCCCCCD#32

/-- Entry (b, o) as the kernel computes it. -/
def kernelForm (X : Arr2) (W Q : Arr3) (b : Fin 128) (oo : Fin 256) : EReal :=
  max (half * (half * (∑ j ∈ Finset.range 64, ∑ l ∈ Finset.range 128,
    max (syn X W Q b oo ((j / 4) % 16) (128 * (j % 4) + l)) 0) - tenth)) 0

/-- Entry (b, o) as the reference computes it. -/
def refForm (X : Arr2) (W Q : Arr3) (b : Fin 128) (oo : Fin 256) : EReal :=
  max (half * ((∑ mm ∈ Finset.range 16, ∑ k ∈ Finset.range 512, max (half * syn X W Q b oo mm k) 0) - tenth)) 0

/-- The two forms are one extended real. -/
theorem kernelForm_eq_refForm (X : Arr2) (W Q : Arr3) (b : Fin 128) (oo : Fin 256) :
    kernelForm X W Q b oo = refForm X W Q b oo := by
  unfold kernelForm refForm
  rw [hoist_sum (c := half) half_nonneg (syn X W Q b oo)]

/-- THE RESULT: the [128, 256] array both programs end with. -/
def G (X : Arr2) (W Q : Arr3) : (⟨2, ![128, 256]⟩ : Shape).Idx → EReal :=
  fun i => kernelForm X W Q ⟨(i 0).val, idx2_lt0 i⟩ ⟨(i 1).val, idx2_lt1 i⟩

end Cert.DnmSpec

end
-- ==== Proof.BlockValue.lean ====
/-
  The block a grid point stores, entry by entry, in the kernel's form.

  If row `p` of the [8, 512] input block is row `b` of `x`, and row `o` of each [128, 16, 512] weight block is row `oo` of `W`, `q`, then
  entry (p, o) of the stored block is `kernelForm x W q b oo`: step `j` loads the rectangle at dendrite `(j / 4) % 16`, lanes
  `128 · (j % 4) + l`, so its lane sum is the sum over `l < 128` of `max (syn ((j / 4) % 16) (128 · (j % 4) + l)) 0`.
-/
import proofs.«421174_j6176162971841_3_alg».proof.Proof.StepValue
import proofs.«421174_j6176162971841_3_alg».proof.Proof.Spec

noncomputable section

namespace Cert.KernelIdeal.Dnm

open Cert.KernelIdeal Cert.KernelIdeal.Gen Idealize.ShloMosaic Idealize.ShloMosaic.TcCoe Idealize.SL.Sem Idealize.ShloMosaic.ValueIdx
open Cert.DnmSpec

/-- Entry (p, l) of the chunk step `j` loads from the input block is entry (p, 128 · (j % 4) + l) of the block. -/
theorem xRect_idx (j : ℕ) (p : Fin 8) (l : Fin 128) (hk : 128 * (j % 4) + l.val < 512) :
    (xRect j).idx (ix2 p l) = ix2 p ⟨128 * (j % 4) + l.val, hk⟩ := by
  funext a; apply Fin.ext
  match a with
  | ⟨0, _⟩ => show 0 + 1 * p.val = p.val; omega
  | ⟨1, _⟩ => show 128 * (j % 4) + 1 * l.val = 128 * (j % 4) + l.val; omega

/-- Entry (o, 0, l) of the chunk step `j` loads from a weight block is entry (o, (j / 4) % 16, 128 · (j % 4) + l) of the block. -/
theorem wRect_idx (j : ℕ) (o : Fin 128) (l : Fin 128) (hm : (j / 4) % 16 < 16) (hk : 128 * (j % 4) + l.val < 512) :
    (wRect j).idx (ix3 o (0 : Fin 1) l) = ix3 o ⟨(j / 4) % 16, hm⟩ ⟨128 * (j % 4) + l.val, hk⟩ := by
  funext a; apply Fin.ext
  match a with
  | ⟨0, _⟩ => show 0 + 1 * o.val = o.val; omega
  | ⟨1, _⟩ => show (j / 4) % 16 + 1 * 0 = (j / 4) % 16; omega
  | ⟨2, _⟩ => show 128 * (j % 4) + 1 * l.val = 128 * (j % 4) + l.val; omega

/-- THE STORED BLOCK at (p, o), for blocks whose rows `p` and `o` are rows `b` and `oo` of the arrays. -/
theorem block_apply (x0 : Vec Ideal S8x512 .f32) (x1 x2 : Vec Ideal S128x16x512 .f32) (X : Arr2) (W Q : Arr3)
    (p : Fin 8) (o : Fin 128) (b : Fin 128) (oo : Fin 256)
    (hX : ∀ k : Fin 512, (x0 (ix2 p k) : EReal) = X (ix2 b k))
    (hW : ∀ (mm : Fin 16) (k : Fin 512), (x1 (ix3 o mm k) : EReal) = W (ix3 oo mm k))
    (hQ : ∀ (mm : Fin 16) (k : Fin 512), (x2 (ix3 o mm k) : EReal) = Q (ix3 oo mm k)) :
    (finish (accAfter x0 x1 x2 64) (ix2 p o) : EReal) = kernelForm X W Q b oo := by
  unfold kernelForm
  show max (half * (half * (accAfter x0 x1 x2 64 (ix2 p o) : EReal) - tenth)) (Ideal.ofBits .f32 0x00000000#32) = _
  rw [Ideal.ofBits_zero_f32, accAfter_apply]
  refine congrArg (fun s => max (half * (half * s - tenth)) 0) (Finset.sum_congr rfl fun j _ => ?_)
  unfold stepTerm
  rw [Finset.sum_range]
  refine Finset.sum_congr rfl fun l _ => ?_
  have hj4 : j % 4 < 4 := Nat.mod_lt _ (by decide)
  have hm : (j / 4) % 16 < 16 := Nat.mod_lt _ (by decide)
  have hk : 128 * (j % 4) + l.val < 512 := by have := l.isLt; omega
  rw [syn_of_lt X W Q b oo hm hk, ← hX, ← hW, ← hQ]
  show max ((x0 ((xRect j).idx (ix2 p l)) : EReal) * x1 ((wRect j).idx (ix3 o (0 : Fin 1) l))
    - x2 ((wRect j).idx (ix3 o (0 : Fin 1) l))) 0 = _
  rw [xRect_idx j p l hk, wRect_idx j o l hm hk]

end Cert.KernelIdeal.Dnm

end
-- ==== Proof.KernelFinal.lean ====
/-
  The kernel's run, read: the result array after the run is `G` of the three argument arrays.

  Grid point `t` stages rows `8·i .. 8·i + 7` of `x` (all 512 columns) and rows `128·j .. 128·j + 127` of `W` and `q` (all 16 × 512), where
  (i, j) is the block index of the [8, 128] output block it writes; so by `block_apply` it writes block (i, j) of `G`. The 16 × 2 output
  blocks tile the [128, 256] result — row `r` lies in block `r / 8`, column `s` in block `s / 128` — hence the whole array ends at `G`.
-/
import proofs.«421174_j6176162971841_3_alg».proof.Proof.KernelValueBlocks
import proofs.«421174_j6176162971841_3_alg».proof.Proof.BlockValue

noncomputable section

namespace Cert.KernelIdeal.Dnm

open Cert.KernelIdeal Cert.KernelIdeal.Gen Idealize.ShloMosaic Idealize.ShloMosaic.TcCoe Idealize.SL.Sem Idealize.ShloMosaic.ValueIdx
open Idealize.ShloMosaic.Pipeline (Dat)
open Cert.DnmSpec

variable (m : (ℓ : Loc nD τ sig) → Buf (Elt Ideal) ℓ) (ρ : Dev nD → PrngReg)

theorem zero_off : (![0, 0] : Fin 2 → Nat) = fun _ => 0 := funext fun a => by fin_cases a <;> rfl

/-- The printed index maps over the 32 grid points: the input block's row index is the output block's, each weight block's row index is
    the output block's column index, every other block index is `0`; the output's block indices range over 16 × 2. -/
theorem block_indices : ∀ t : Fin cfg0.N,
    win0_0.index t (0 : Fin 2) = win0_3.index t (0 : Fin 2) ∧ win0_0.index t (1 : Fin 2) = 0
    ∧ win0_1.index t (0 : Fin 3) = win0_3.index t (1 : Fin 2) ∧ win0_1.index t (1 : Fin 3) = 0 ∧ win0_1.index t (2 : Fin 3) = 0
    ∧ win0_2.index t (0 : Fin 3) = win0_3.index t (1 : Fin 2) ∧ win0_2.index t (1 : Fin 3) = 0 ∧ win0_2.index t (2 : Fin 3) = 0
    ∧ win0_3.index t (0 : Fin 2) ≤ 15 ∧ win0_3.index t (1 : Fin 2) ≤ 1 :=
  (by decide +kernel : ∀ t : Fin grid0.N, _)

/-- Every one of the 16 × 2 output blocks is some point's. -/
theorem block_onto : ∀ (q0 : Fin 16) (q1 : Fin 2), ∃ t : Fin cfg0.N, win0_3.index t = ![q0.val, q1.val] :=
  (by decide +kernel : ∀ (q0 : Fin 16) (q1 : Fin 2), ∃ t : Fin grid0.N, win0_3.index t = ![q0.val, q1.val])

/-- WHAT POINT `t` WRITES BACK is block `t` of `G` of the argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Cert.KernelIdeal.ValueBlocks.flushed3, out0_3_eq, View.canon_unit_zero zero_off]
  obtain ⟨e0, e1, e2, e3, e4, e5, e6, e7, e8, e9⟩ := block_indices t
  funext y
  obtain ⟨p, o, rfl⟩ : ∃ (p : Fin 8) (o : Fin 128), y = ix2 p o := ⟨y 0, y 1, eq_ix2 y⟩
  have hp : p.val < 8 := p.isLt
  have ho : o.val < 128 := o.isLt
  have hb : win0_3.index t (0 : Fin 2) * 8 + p.val < 128 := by omega
  have hoo : win0_3.index t (1 : Fin 2) * 128 + o.val < 256 := by omega
  show (finish (accAfter (iblk m c 0 t) (iblk m c 1 t) (iblk m c 2 t) 64) (ix2 p o) : EReal)
    = G (V m c main_arg0) (V m c main_arg1) (V m c main_arg2) (((cfg0.win 3).blk t).view.emb (ix2 p o))
  refine (block_apply (iblk m c 0 t) (iblk m c 1 t) (iblk m c 2 t) (V m c main_arg0) (V m c main_arg1) (V m c main_arg2) p o
    ⟨win0_3.index t (0 : Fin 2) * 8 + p.val, hb⟩ ⟨win0_3.index t (1 : Fin 2) * 128 + o.val, hoo⟩ ?_ ?_ ?_).trans ?_
  · intro k
    show V m c main_arg0 (((cfg0.win 0).blk t).view.emb (ix2 p k)) = V m c main_arg0 (ix2 ⟨_, hb⟩ k)
    refine congrArg (V m c main_arg0) (funext fun a => Fin.ext ?_)
    match a with
    | ⟨0, _⟩ => show win0_0.index t (0 : Fin 2) * 8 + 1 * p.val = win0_3.index t (0 : Fin 2) * 8 + p.val; omega
    | ⟨1, _⟩ => show win0_0.index t (1 : Fin 2) * 512 + 1 * k.val = k.val; omega
  · intro mm k
    show V m c main_arg1 (((cfg0.win 1).blk t).view.emb (ix3 o mm k)) = V m c main_arg1 (ix3 ⟨_, hoo⟩ mm k)
    refine congrArg (V m c main_arg1) (funext fun a => Fin.ext ?_)
    match a with
    | ⟨0, _⟩ => show win0_1.index t (0 : Fin 3) * 128 + 1 * o.val = win0_3.index t (1 : Fin 2) * 128 + o.val; omega
    | ⟨1, _⟩ => show win0_1.index t (1 : Fin 3) * 16 + 1 * mm.val = mm.val; omega
    | ⟨2, _⟩ => show win0_1.index t (2 : Fin 3) * 512 + 1 * k.val = k.val; omega
  · intro mm k
    show V m c main_arg2 (((cfg0.win 2).blk t).view.emb (ix3 o mm k)) = V m c main_arg2 (ix3 ⟨_, hoo⟩ mm k)
    refine congrArg (V m c main_arg2) (funext fun a => Fin.ext ?_)
    match a with
    | ⟨0, _⟩ => show win0_2.index t (0 : Fin 3) * 128 + 1 * o.val = win0_3.index t (1 : Fin 2) * 128 + o.val; omega
    | ⟨1, _⟩ => show win0_2.index t (1 : Fin 3) * 16 + 1 * mm.val = mm.val; omega
    | ⟨2, _⟩ => show win0_2.index t (2 : Fin 3) * 512 + 1 * k.val = k.val; omega
  · show kernelForm _ _ _ _ _ = kernelForm _ _ _ _ _
    congr 1
    · apply Fin.ext
      show win0_3.index t (0 : Fin 2) * 8 + p.val = win0_3.index t (0 : Fin 2) * 8 + 1 * p.val
      omega
    · apply Fin.ext
      show win0_3.index t (1 : Fin 2) * 128 + o.val = win0_3.index t (1 : Fin 2) * 128 + 1 * o.val
      omega

/-- An index of the result is in point `t`'s block iff each coordinate is in the block's range on its axis. -/
theorem mem_block (t : Fin cfg0.N) (i : S128x256.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v0).slice (win0_3.rect t)).set ↔ _
  rw [View.set_slice_whole, Rect.mem_set_unit]
  exact Iff.rfl

/-- The output blocks cover the result: (r, s) is in the block of the point whose block index is (r / 8, s / 128). -/
theorem covered (i : S128x256.Idx) :
    ∃ t : Fin cfg0.N, (cfg0.win 3).flush t = true ∧ i ∈ ((cfg0.win 3).blk t).view.set := by
  have hi0 : (i 0).val < 128 := (i 0).isLt
  have hi1 : (i 1).val < 256 := (i 1).isLt
  obtain ⟨t, ht⟩ := block_onto ⟨(i 0).val / 8, by omega⟩ ⟨(i 1).val / 128, by omega⟩
  have q0 : win0_3.index t (0 : Fin 2) = (i 0).val / 8 := congrFun ht 0
  have q1 : win0_3.index t (1 : Fin 2) = (i 1).val / 128 := congrFun ht 1
  refine ⟨t, flush0_3 t, ?_⟩
  rw [mem_block]
  intro a
  match a with
  | ⟨0, _⟩ =>
    show win0_3.index t (0 : Fin 2) * 8 ≤ (i 0).val ∧ (i 0).val < win0_3.index t (0 : Fin 2) * 8 + 8
    omega
  | ⟨1, _⟩ =>
    show win0_3.index t (1 : Fin 2) * 128 ≤ (i 1).val ∧ (i 1).val < win0_3.index t (1 : Fin 2) * 128 + 128
    omega

/-- THE RESULT ARRAY after the run is `G` of the argument arrays. -/
theorem final (c : Dev nD) :
    (dats m 0 c).arrAt 3 cfg0.N = G (V m c main_arg0) (V m c main_arg1) (V m c main_arg2) :=
  (dats m 0 c).arrAt_eq_of_cover 3 _ (fun t _ => flushed_eq m c t) covered

/-- The kernel's run re-posted: the result at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.ValueBlocks.run_blocks m ρ)

end Cert.KernelIdeal.Dnm

end
-- ==== Proof.RefValue.lean ====
/-
  The reference's result, entry by entry, in the reference's form.

  Read one operation at a time, the reference's result at (b, o) is `max (c · ((0 + ∑ m, (0 + ∑ k, max (c · (x[b, k] · W[o, m, k] − q[o, m, k])) 0))
  − d)) 0`, the broadcasts reading `x` at (b, k) and `W`, `q` at (o, m, k): that is `refForm` of the arrays, hence (by the hoist) `G`.
-/
import proofs.«421174_j6176162971841_3_alg».proof.Proof.Gen.ReferenceIdeal.Read
import proofs.«421174_j6176162971841_3_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.DnmSpec

/-- The inner positive part at (b, o, m, k) is `max (c · syn m k) 0`. -/
theorem relu_syn_apply (X : (⟨S128x512, .f32⟩ : BufTy).Contents (Elt Ideal)) (W Q : (⟨S256x16x512, .f32⟩ : BufTy).Contents (Elt Ideal))
    (b : Fin 128) (oo : Fin 256) (mm : Fin 16) (k : Fin 512) :
    (val_main_v10 (F := Ideal) X W Q (ix4 b oo mm k) : EReal) = max (half * syn X W Q b oo mm.val k.val) 0 := by
  rw [syn_of_lt X W Q b oo mm.isLt k.isLt]
  rw [val_main_v10_apply, val_main_v9_apply, val_main_v8_apply, val_main_cst_apply, val_main_v7_apply, val_main_v4_apply,
    val_main_v2_apply, val_main_v0_apply, val_main_v3_apply, val_main_v1_apply, val_main_v6_apply, val_main_v5_apply,
    val_main_call0_v0_apply, val_main_call0_cst_apply]
  have hx : idx_main_v0 (idx_main_v2 (ix4 b oo mm k)) = ix2 b ⟨k.val, k.isLt⟩ :=
    funext fun a => Fin.ext (by match a with | ⟨0, _⟩ => rfl | ⟨1, _⟩ => rfl)
  have hw : idx_main_v1 (idx_main_v3 (ix4 b oo mm k)) = ix3 oo ⟨mm.val, mm.isLt⟩ ⟨k.val, k.isLt⟩ :=
    funext fun a => Fin.ext (by match a with | ⟨0, _⟩ => rfl | ⟨1, _⟩ => rfl | ⟨2, _⟩ => rfl)
  have hq : idx_main_v5 (idx_main_v6 (ix4 b oo mm k)) = ix3 oo ⟨mm.val, mm.isLt⟩ ⟨k.val, k.isLt⟩ :=
    funext fun a => Fin.ext (by match a with | ⟨0, _⟩ => rfl | ⟨1, _⟩ => rfl | ⟨2, _⟩ => rfl)
  rw [hx, hw, hq]
  show max (half * _) (Ideal.ofBits .f32 0x00000000#32) = _
  rw [Ideal.ofBits_zero_f32]
  rfl

/-- THE REFERENCE'S RESULT at an index is `refForm` of the arrays at its two coordinates. -/
theorem ref_apply (X : (⟨S128x512, .f32⟩ : BufTy).Contents (Elt Ideal)) (W Q : (⟨S256x16x512, .f32⟩ : BufTy).Contents (Elt Ideal))
    (i : S128x256.Idx) :
    (val_main_v17 (F := Ideal) X W Q i : EReal) = refForm X W Q ⟨(i 0).val, idx2_lt0 i⟩ ⟨(i 1).val, idx2_lt1 i⟩ := by
  unfold refForm
  have hsum : ∑ mm : Fin 16, (val_main_v11 (F := Ideal) X W Q (idx_main_v12 i mm) : EReal)
      = ∑ mm ∈ Finset.range 16, ∑ k ∈ Finset.range 512,
          max (half * syn X W Q ⟨(i 0).val, idx2_lt0 i⟩ ⟨(i 1).val, idx2_lt1 i⟩ mm k) 0 := by
    rw [Finset.sum_range]
    refine Finset.sum_congr rfl fun mm _ => ?_
    rw [val_main_v11_apply, val_main_cst_0_apply, Finset.sum_range]
    show Ideal.ofBits .f32 0x00000000#32 + _ = _
    rw [Ideal.ofBits_zero_f32, zero_add]
    refine Finset.sum_congr rfl fun k _ => ?_
    have hJ : idx_main_v11 (idx_main_v12 i mm) k
        = ix4 (⟨(i 0).val, idx2_lt0 i⟩ : Fin 128) (⟨(i 1).val, idx2_lt1 i⟩ : Fin 256) mm k :=
      funext fun a => Fin.ext (by match a with | ⟨0, _⟩ => rfl | ⟨1, _⟩ => rfl | ⟨2, _⟩ => rfl | ⟨3, _⟩ => rfl)
    rw [hJ]
    exact relu_syn_apply X W Q _ _ mm k
  rw [val_main_v17_apply, val_main_v16_apply, val_main_v15_apply, val_main_cst_3_apply, val_main_v14_apply, val_main_v13_apply,
    val_main_cst_2_apply, val_main_v12_apply, val_main_cst_1_apply, val_main_call1_v0_apply, val_main_call1_cst_apply]
  show max (half * ((Ideal.ofBits .f32 0x00000000#32 + ∑ mm : Fin 16, (val_main_v11 (F := Ideal) X W Q (idx_main_v12 i mm) : EReal)) - tenth))
    (Ideal.ofBits .f32 0x00000000#32) = _
  rw [hsum, Ideal.ofBits_zero_f32, zero_add]

/-- The reference's result IS `G` of the arrays. -/
theorem ref_eq (X : (⟨S128x512, .f32⟩ : BufTy).Contents (Elt Ideal)) (W Q : (⟨S256x16x512, .f32⟩ : BufTy).Contents (Elt Ideal)) :
    val_main_v17 (F := Ideal) X W Q = G X W Q := by
  funext i
  rw [ref_apply]
  exact (kernelForm_eq_refForm X W Q _ _).symm

end Cert.ReferenceIdeal.RefValue

end
-- ==== Proof.lean ====
/-
  The dendritic-neuron layer: `relu (c · (∑ m, ∑ k, relu (c · (x[b, k] · W[o, m, k] − q[o, m, k])) − d))` with `c = 0.5`, `d = 0.1`, a Pallas
  kernel over a 2 × 16 grid of [8, 128] output blocks against its jnp reference.

  The kernel leaves the inner factor `c` out of the synapse: per block it accumulates `relu (x · W − q)` over 16 dendrites × 4 chunks of 128
  lanes (64 unrolled steps, each a lane reduction added to the accumulator) and multiplies the total by `c` once before the outer
  `relu (c · (· − d))`. Over the extended reals the two agree for EVERY input: `c ≥ 0` commutes with `max · 0`, and distributes over sums of
  nonnegative terms even when some are `+∞`; regrouping the 64 × 128 terms as 16 × 512 is associativity and commutativity of `+`. So the
  finiteness precondition is not used.

  The modules: `SumLaws` (the extended-real laws), `Spec` (both forms of an entry, the hoist that joins them, the result function `G`),
  `Steps` (the body is the 64-fold of one step), `StepValue` (a step and the accumulator at an entry), `BlockValue` (a stored block is a
  block of `G`), `KernelFinal` (the blocks tile the result: the kernel's run ends at `G`), `RefValue` (the reference's run ends at `G`).
  Both frames of the kernel are the generated ones; the reference's frame is its generated run with the result dropped; no operation
  of the kernel is rewritten in its idealization, so `preserves` is `True`.
-/
import proofs.«421174_j6176162971841_3_alg».proof.Defs
import proofs.«421174_j6176162971841_3_alg».proof.Proof.Gen.Kernel
import proofs.«421174_j6176162971841_3_alg».proof.Proof.Gen.Kernel.Skeleton
import proofs.«421174_j6176162971841_3_alg».proof.Proof.Gen.Kernel.Launch
import proofs.«421174_j6176162971841_3_alg».proof.Proof.Gen.Kernel.Points
import proofs.«421174_j6176162971841_3_alg».proof.Proof.Gen.Kernel.Frame
import proofs.«421174_j6176162971841_3_alg».proof.Proof.Gen.KernelIdeal
import proofs.«421174_j6176162971841_3_alg».proof.Proof.Gen.KernelIdeal.Skeleton
import proofs.«421174_j6176162971841_3_alg».proof.Proof.Gen.KernelIdeal.Launch
import proofs.«421174_j6176162971841_3_alg».proof.Proof.Gen.KernelIdeal.Points
import proofs.«421174_j6176162971841_3_alg».proof.Proof.Gen.KernelIdeal.Frame
import proofs.«421174_j6176162971841_3_alg».proof.Proof.Gen.ReferenceIdeal
import proofs.«421174_j6176162971841_3_alg».proof.Proof.Gen.Pre_finite_inputs
import proofs.«421174_j6176162971841_3_alg».proof.Proof.KernelValueBlocks
import proofs.«421174_j6176162971841_3_alg».proof.Proof.Gen.ReferenceIdeal.Run
import proofs.«421174_j6176162971841_3_alg».proof.Proof.Gen.ReferenceIdeal.Read
import proofs.«421174_j6176162971841_3_alg».proof.Proof.KernelFinal
import proofs.«421174_j6176162971841_3_alg».proof.Proof.RefValue
import Idealize.ShloMosaic.Adequacy
import Idealize.ShloMosaic.Init

noncomputable section

namespace Cert.Proof

open Idealize.ShloMosaic Idealize.ShloMosaic.TcCoe Idealize.SL.Sem

/-- Every weakly fair execution of the kernel as printed terminates, faults nowhere and keeps its arguments. -/
theorem frame_kernel : Cert.frame_Kernel := fun m ρ _ => Cert.Kernel.Gen.frame m ρ

/-- The same for the kernel read over the extended reals. -/
theorem frame_kernelIdeal : Cert.frame_KernelIdeal := fun m ρ _ => Cert.KernelIdeal.Gen.frame m ρ

/-- The reference runs and keeps its arguments: its run, the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x`, `W`, `q`, both programs end with the result array `G x W q`: the kernel because its blocks tile `G`,
    the reference because its operations compose to the reference's form of each entry, equal to the kernel's form by the hoist. -/
theorem algebraic : Cert.algebraic_KernelIdeal_ReferenceIdeal := by
  intro m ρ m' ρ' _ hagree
  refine ⟨_, Cert.KernelIdeal.Dnm.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _ _ _).trans ?_
  rw [Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
